-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S256x128 .f32) (main_arg3 : FVec F S128 .f32) (main_arg4 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000x128 : Shape := ⟨2, ![100000, 128]⟩
abbrev S2000x256 : Shape := ⟨2, ![2000, 256]⟩
abbrev S2000x128 : Shape := ⟨2, ![2000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 58
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S100000x128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S1700000x1, .f32⟩
  | .hbm, ⟨49, _⟩ => ⟨S1700000x128, .f32⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S1x128, .f32⟩
  | .hbm, ⟨56, _⟩ => ⟨S1x128, .f32⟩
  | .hbm, ⟨57, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x256_S256x128_S2000x128_1_0_0_1_n_n_wf : DotDims.WF S2000x256 S256x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S1700000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S100000x128, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S1700000x1, .f32⟩
  | .hbm, ⟨49, _⟩ => ⟨S1700000x128, .f32⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .i1⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Spec.lean ====
/-
  The graph-convolution layer that both programs compute, written once over the extended reals.

  * `dotAt x w r q` is entry (r, q) of the product of an [R, 256] array with a [256, 128] array: the sum over
    k < 256 of x(r, k) * w(k, q).  `linear x w` is the whole product h = x · W of the node features with the weights.
  * `actAt a b α` is one entry of the layer's output stage: with z = a + b (the aggregated value plus the bias) it is
    z where z ≥ 0 and α * z elsewhere (the leaky rectifier with a per-channel slope).  `activate a b α` applies it at
    every entry (n, c) with the bias and the slope read at the channel c.

  Both matrix products that occur (a tile product into a zero accumulator on one side, one whole contraction on the
  other) are, at the ideal instance, the plain sum `dotAt`: the contraction's own index type is carried to the numbers
  below 256 by the re-indexing lemma for a product with no batch axis.  No rearrangement of a sum is involved, so
  nothing here needs the entries to be finite.
-/
import Idealize.ShloMosaic.PureOps.Ideal
import Idealize.ShloMosaic.PureOps.Ideal.Laws
import Idealize.ShloMosaic.Lib.ValueIdx
import Idealize.ShloMosaic.Lib.ValueLayout
import proofs.«145454_j6313601925376_1_alg».proof.Proof.LibPlainDot

noncomputable section

namespace Gcn

open Idealize.ShloMosaic Idealize.ShloMosaic.ValueIdx

/-- Entry (r, q) of the product of an [R, 256] array with a [256, 128] array. -/
def dotAt {R : Nat} (x : (⟨2, ![R, 256]⟩ : Shape).Idx → EReal) (w : (⟨2, ![256, 128]⟩ : Shape).Idx → EReal)
    (r : Fin R) (q : Fin 128) : EReal :=
  ∑ k : Fin 256, x (ix2 r k) * w (ix2 k q)

/-- The linear transform h = x · W of the whole node-feature array. -/
def linear (x : (⟨2, ![100000, 256]⟩ : Shape).Idx → EReal) (w : (⟨2, ![256, 128]⟩ : Shape).Idx → EReal) :
    (⟨2, ![100000, 128]⟩ : Shape).Idx → EReal :=
  fun i => dotAt x w ⟨(i 0).val, idx2_lt0 i⟩ ⟨(i 1).val, idx2_lt1 i⟩

theorem linear_ix2 (x : (⟨2, ![100000, 256]⟩ : Shape).Idx → EReal) (w : (⟨2, ![256, 128]⟩ : Shape).Idx → EReal)
    (r : Fin 100000) (q : Fin 128) : linear x w (ix2 r q) = dotAt x w r q := rfl

/-- One entry of the output stage: z = a + b, then z where z ≥ 0 and α * z elsewhere. -/
def actAt (a b α : EReal) : EReal :=
  Scalar.select (Ideal.cmp .oge (a + b) (Ideal.ofBits .f32 0x00000000#32)) (a + b) (α * (a + b))

/-- The output stage at every entry (n, c): bias and slope are read at the channel c. -/
def activate (a : (⟨2, ![100000, 128]⟩ : Shape).Idx → EReal) (b α : (⟨1, ![128]⟩ : Shape).Idx → EReal) :
    (⟨2, ![100000, 128]⟩ : Shape).Idx → EReal :=
  fun i => actAt (a i) (b (ix1 ⟨(i 1).val, idx2_lt1 i⟩)) (α (ix1 ⟨(i 1).val, idx2_lt1 i⟩))

theorem activate_ix2 (a : (⟨2, ![100000, 128]⟩ : Shape).Idx → EReal) (b α : (⟨1, ![128]⟩ : Shape).Idx → EReal)
    (n : Fin 100000) (c : Fin 128) : activate a b α (ix2 n c) = actAt (a (ix2 n c)) (b (ix1 c)) (α (ix1 c)) := rfl

/-- The output stage with the bias and the slope given as one-row arrays [1, 128]. -/
def activateRows (a : (⟨2, ![100000, 128]⟩ : Shape).Idx → EReal) (b α : (⟨2, ![1, 128]⟩ : Shape).Idx → EReal) :
    (⟨2, ![100000, 128]⟩ : Shape).Idx → EReal :=
  fun i => actAt (a i) (b (ix2 (0 : Fin 1) ⟨(i 1).val, idx2_lt1 i⟩)) (α (ix2 (0 : Fin 1) ⟨(i 1).val, idx2_lt1 i⟩))

/-- A [128] array recast as one row [1, 128] holds the same 128 numbers, so the two forms of the output stage agree. -/
theorem activateRows_cast (a : (⟨2, ![100000, 128]⟩ : Shape).Idx → EReal) (b α : (⟨1, ![128]⟩ : Shape).Idx → EReal)
    (h : (⟨1, ![128]⟩ : Shape).ShapeCasts ⟨2, ![1, 128]⟩) :
    activateRows a (shapeCast ⟨2, ![1, 128]⟩ b h) (shapeCast ⟨2, ![1, 128]⟩ α h) = activate a b α := by
  funext i
  unfold activateRows activate
  rw [shapeCast_a_1a_apply, shapeCast_a_1a_apply]

/-- A whole contraction on the host, at the ideal instance, read at (r, q): the plain sum. -/
theorem dotGeneral_at {R : Nat} (d : DotDims ⟨2, ![R, 256]⟩ ⟨2, ![256, 128]⟩ ⟨2, ![R, 128]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (x : FVec Ideal ⟨2, ![R, 256]⟩ .f32) (w : FVec Ideal ⟨2, ![256, 128]⟩ .f32)
    (r : Fin R) (q : Fin 128) :
    Host.dotGeneral d prec x w (ix2 r q) = dotAt x w r q := by
  simp only [Host.dotGeneral]
  rw [Ideal.dotGeneral_apply]
  exact PlainDot.sum_eq d hlb hln hlc hrb hrn hrc x w r q

/-- A tile product into the zero accumulator, at the ideal instance, read at (r, q): the plain sum.  The operands
    may be of any float format: at the ideal instance every format holds the same extended reals. -/
theorem matmul_zero_at {R : Nat} {φ₁ φ₂ : FTy} (d : DotDims ⟨2, ![R, 256]⟩ ⟨2, ![256, 128]⟩ ⟨2, ![R, 128]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (x : FVec Ideal ⟨2, ![R, 256]⟩ φ₁) (w : FVec Ideal ⟨2, ![256, 128]⟩ φ₂)
    (r : Fin R) (q : Fin 128) :
    matmul d prec x w (constant ⟨2, ![R, 128]⟩ .f32 0x00000000#32) (ix2 r q) = dotAt x w r q := by
  simp only [matmul]
  rw [Ideal.matmul_constant_zero_apply]
  exact PlainDot.sum_eq d hlb hln hlc hrb hrn hrc x w r q

end Gcn

end
-- ==== Proof.Aggregate.lean ====
/-
  The reference program's result, as the layer's three stages composed.

  The reference computes h = x · W by one whole contraction, aggregates it over the edge list with self loops
  (degrees by a scatter-add of ones at the destinations, the inverse square roots gathered at both ends of every
  edge, each gathered row of h scaled by the product and scatter-added at its destination), adds the bias and applies
  the leaky rectifier.  The aggregation is a fixed chain of index arithmetic, gathers and scatter-adds applied to h and
  to the edge list: it is named `aggregate` here as one function of those two arrays and is never opened, because the
  other program applies the very same chain to its own h.  Around it: h is `Gcn.linear x W` (the whole contraction read
  entry by entry), and the last seven operations are `Gcn.activate` entry by entry (the bias and the slope, broadcast
  along the rows, are read at the entry's channel).
-/
import proofs.«145454_j6313601925376_1_alg».proof.Proof.Gen.ReferenceIdeal.Read
import proofs.«145454_j6313601925376_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

variable {F : FTy → Type} [FloatOps F]

/-- The normalised aggregation over the edge list e (with self loops) of an array h of per-node rows: every edge
    (row → col) adds rsqrt(deg row) * rsqrt(deg col) * h[row] into out[col], deg counting the edges into a node. -/
def aggregate (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1700000x1_S1700000x128_1_0_0_1 (val_main_v38 (F := F)) (val_main_v39 (F := F) e)
    (mulf (Host.gather gather_S100000x128_S1700000x1_S1700000x128_1_0_n_n_0_1_1128 (h) (val_main_v33 (F := F) e))
      (val_main_v36 (F := F) e))

/-- The reference's aggregated array is `aggregate` of its own h. -/
theorem aggregated_eq (x : (⟨S100000x256, .f32⟩ : BufTy).Contents (Elt F)) (e : (⟨S2x1600000, .i32⟩ : BufTy).Contents (Elt F))
    (W : (⟨S256x128, .f32⟩ : BufTy).Contents (Elt F)) :
    val_main_v40 (F := F) x e W = aggregate (F := F) (val_main_v27 (F := F) x W) e := rfl

/-- The reference's h is x · W: its whole contraction read at an entry is the plain sum. -/
theorem linear_eq (x : (⟨S100000x256, .f32⟩ : BufTy).Contents (Elt Ideal)) (W : (⟨S256x128, .f32⟩ : BufTy).Contents (Elt Ideal)) :
    val_main_v27 (F := Ideal) x W = Gcn.linear x W := by
  funext i
  obtain ⟨r, q, rfl⟩ : ∃ (r : Fin 100000) (q : Fin 128), i = ix2 r q := ⟨i 0, i 1, eq_ix2 i⟩
  unfold val_main_v27
  exact Gcn.dotGeneral_at dot_S100000x256_S256x128_S100000x128_1_0_0_1_n_n rfl rfl rfl rfl rfl rfl none x W r q

/-- THE REFERENCE'S RESULT: the output stage of the aggregation of x · W. -/
theorem result_eq (x : (⟨S100000x256, .f32⟩ : BufTy).Contents (Elt Ideal)) (e : (⟨S2x1600000, .i32⟩ : BufTy).Contents (Elt Ideal))
    (W : (⟨S256x128, .f32⟩ : BufTy).Contents (Elt Ideal)) (b α : (⟨S128, .f32⟩ : BufTy).Contents (Elt Ideal)) :
    val_main_v49 (F := Ideal) x e W b α = Gcn.activate (aggregate (F := Ideal) (Gcn.linear x W) e) b α := by
  funext i
  have hb : idx_main_v41 (idx_main_v42 i) = ix1 (⟨(i 1).val, idx2_lt1 i⟩ : Fin 128) :=
    funext fun a => by match a with | ⟨0, _⟩ => rfl
  have hα : idx_main_v46 (idx_main_v47 i) = ix1 (⟨(i 1).val, idx2_lt1 i⟩ : Fin 128) :=
    funext fun a => by match a with | ⟨0, _⟩ => rfl
  rw [val_main_v49_apply, val_main_v45_apply, val_main_v48_apply, val_main_v43_apply, val_main_v44_apply,
    val_main_cst_7_apply, val_main_v42_apply, val_main_v41_apply, val_main_v47_apply, val_main_v46_apply, hb, hα,
    aggregated_eq, linear_eq]
  rfl

end Cert.ReferenceIdeal.RefValue

end
-- ==== Proof.LinearValue.lean ====
/-
  The first kernel region: the array it leaves is the whole product h = x · W.

  The region walks 50 grid points.  At point t it reads rows 2000·t … 2000·t + 1999 of x (all 256 columns) and the
  whole weight array W, and writes rows 2000·t … 2000·t + 1999 of the result (all 128 columns) with the tile product
  of the two blocks into a zero accumulator.  Row p of the tile is row 2000·t + p of the array, so entry (p, q) of the
  tile product is the sum over k < 256 of x(2000·t + p, k) * W(k, q): entry (2000·t + p, q) of x · W.  The 50 row bands
  tile the 100000 rows, so every entry of the array is written by the one point t = row / 2000, and the array after
  the region is x · W.  Stated at any contents V the region is entered from.
-/
import proofs.«145454_j6313601925376_1_alg».proof.Proof.Gen.KernelIdeal.Frame
import proofs.«145454_j6313601925376_1_alg».proof.Proof.Spec
import Idealize.ShloMosaic.Lib.Pipeline.Value
import Idealize.ShloMosaic.Lib.ValueIdx

set_option maxRecDepth 16384

noncomputable section

namespace Cert.KernelIdeal.LinearValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The tile product's entry (p, q) is the plain sum over the 256 contracted positions: the two narrowing casts
    in front of it are the identity on extended reals and the accumulator is zero. -/
theorem tile_at (xb : Vec Ideal S2000x256 .f32) (wb : Vec Ideal S256x128 .f32) (p : Fin 2000) (q : Fin 128) :
    k0_pay1 (F := Ideal) xb wb (ix2 p q) = Gcn.dotAt xb wb p q := by
  unfold k0_pay1
  exact Gcn.matmul_zero_at dot_S2000x256_S256x128_S2000x128_1_0_0_1_n_n rfl rfl rfl rfl rfl rfl none
    (truncf .bf16 xb bitsLt_bf16_f32) (truncf .bf16 wb bitsLt_bf16_f32) p q

/-- If row (y 0) of the x-block is row (i 0) of the array X and column (y 1) of the W-block is column (i 1) of the
    array Wt, the tile product at y is entry i of X · Wt. -/
theorem tile_is_linear (X : (⟨2, ![100000, 256]⟩ : Shape).Idx → EReal) (Wt : (⟨2, ![256, 128]⟩ : Shape).Idx → EReal)
    (xb : Vec Ideal S2000x256 .f32) (wb : Vec Ideal S256x128 .f32) (y : S2000x128.Idx) (i : S100000x128.Idx)
    (hx : ∀ k : Fin 256, xb (ix2 (⟨(y 0).val, idx2_lt0 y⟩ : Fin 2000) k) = X (ix2 (⟨(i 0).val, idx2_lt0 i⟩ : Fin 100000) k))
    (hw : ∀ k : Fin 256, wb (ix2 k (⟨(y 1).val, idx2_lt1 y⟩ : Fin 128)) = Wt (ix2 k (⟨(i 1).val, idx2_lt1 i⟩ : Fin 128))) :
    k0_pay1 (F := Ideal) xb wb y = Gcn.linear X Wt i := by
  obtain ⟨p, q, rfl⟩ : ∃ (p : Fin 2000) (q : Fin 128), y = ix2 p q := ⟨y 0, y 1, eq_ix2 y⟩
  refine (tile_at xb wb p q).trans ?_
  show ∑ k : Fin 256, xb (ix2 p k) * wb (ix2 k q)
    = ∑ k : Fin 256, X (ix2 (⟨(i 0).val, idx2_lt0 i⟩ : Fin 100000) k) * Wt (ix2 k (⟨(i 1).val, idx2_lt1 i⟩ : Fin 128))
  exact Finset.sum_congr rfl fun k _ => congrArg₂ (· * ·) (hx k) (hw k)

section Region
variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the 50 points: the x-block and the result block are both the row band t, every other
    block index is 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every row band is some point's. -/
theorem band_onto : ∀ (q0 : Fin 50), ∃ t : Fin cfg0.N, win0_2.index t = ![q0.val, 0] :=
  (by decide +kernel : ∀ (q0 : Fin 50), ∃ t : Fin grid0.N, win0_2.index t = ![q0.val, 0])

/-- What point t writes back is block t of x · W. -/
theorem flushed_eq (c : Dev nD) (t : Fin cfg0.N) :
    (dat0 V c).flushed 2 t
      = ((cfg0.win 2).blk t).view.read (Elt Ideal) (Gcn.linear (V c main_arg0) (V c main_arg2)) := by
  show (cfg0.win 2).cut (grid0.coords t) ((dat0 V c).after 2 t) = _
  rw [after0_2]
  unfold out0_2
  rw [View.canon_unit_zero offsets_zero]
  simp only [View.ld_unit_zero (S := S2000x256) offsets_zero, View.ld_unit_zero (S := S256x128) offsets_zero]
  obtain ⟨e0, e1, e2, e3, e4, e5⟩ := index_facts t
  funext j
  show k0_pay1 (F := Ideal) (iblk0 V c 0 t) (iblk0 V c 1 t) j
    = Gcn.linear (V c main_arg0) (V c main_arg2) (((cfg0.win 2).blk t).view.emb j)
  refine tile_is_linear (V c main_arg0) (V c main_arg2) (iblk0 V c 0 t) (iblk0 V c 1 t) j
    (((cfg0.win 2).blk t).view.emb j) (fun k => ?_) (fun k => ?_)
  · show V c main_arg0 (((cfg0.win 0).blk t).view.emb (ix2 (⟨(j 0).val, idx2_lt0 j⟩ : Fin 2000) k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  · show V c main_arg2 (((cfg0.win 1).blk t).view.emb (ix2 k (⟨(j 1).val, idx2_lt1 j⟩ : Fin 128))) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the result array is in point t's block iff each coordinate is in the block's range on its axis. -/
theorem mem_band (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every entry of the result array lies in the block of the point whose band holds its row. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := band_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_band]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the region is x · W of the arrays the region was entered with. -/
theorem array_after (c : Dev nD) :
    (dat0 V c).arrAt 2 cfg0.N = Gcn.linear (V c main_arg0) (V c main_arg2) :=
  (dat0 V c).arrAt_eq_of_cover 2 (Gcn.linear (V c main_arg0) (V c main_arg2)) (fun t _ => flushed_eq V c t) covered

end Region

end Cert.KernelIdeal.LinearValue

end
-- ==== Proof.ActivateValue.lean ====
/-
  The second kernel region: the array it leaves is the output stage applied to the array it reads.

  The region walks 50 grid points.  At point t it reads rows 2000·t … 2000·t + 1999 of the aggregated array (all 128
  columns) and the one-row bias and slope arrays, and writes the same rows of the result.  Entry (p, q) of the written
  block is computed from entry (p, q) of the read block and column q of the two rows only: z = a + b, then z where
  z ≥ 0 and α * z elsewhere.  Row p of a block is row 2000·t + p of its array, the 50 row bands tile the 100000 rows,
  so the array after the region is the output stage at every entry.  Stated at any contents V the region is entered from.
-/
import proofs.«145454_j6313601925376_1_alg».proof.Proof.Gen.KernelIdeal.Frame
import proofs.«145454_j6313601925376_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.ActivateValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The body's value at (p, q): the output stage of the read entry (p, q) with the bias and the slope at column q.
    The two identity recasts drop out, the one-row arrays are read at their row 0, and every operation is read at
    the index. -/
theorem stage_at (ab : Vec Ideal S2000x128 .f32) (bb αb : Vec Ideal S1x128 .f32) (p : Fin 2000) (q : Fin 128) :
    k1_pay1 (F := Ideal) ab bb αb (ix2 p q)
      = Gcn.actAt (ab (ix2 p q)) (bb (ix2 (0 : Fin 1) q)) (αb (ix2 (0 : Fin 1) q)) := by
  unfold k1_pay1
  simp only [select_apply, cmpf_apply, mulf_apply, addf_apply, broadcast_apply, shapeCast_self,
    broadcastTo_1b_ab_apply]
  rfl

/-- If the read block at y is the array A at i and column (y 1) of the two rows is column (i 1) of the arrays B and
    Al, the body's value at y is the output stage of A, B, Al at i. -/
theorem block_is_activate (A : (⟨2, ![100000, 128]⟩ : Shape).Idx → EReal) (B Al : (⟨2, ![1, 128]⟩ : Shape).Idx → EReal)
    (ab : Vec Ideal S2000x128 .f32) (bb αb : Vec Ideal S1x128 .f32) (y : S2000x128.Idx) (i : S100000x128.Idx)
    (ha : ab y = A i)
    (hb : bb (ix2 (0 : Fin 1) (⟨(y 1).val, idx2_lt1 y⟩ : Fin 128)) = B (ix2 (0 : Fin 1) (⟨(i 1).val, idx2_lt1 i⟩ : Fin 128)))
    (hα : αb (ix2 (0 : Fin 1) (⟨(y 1).val, idx2_lt1 y⟩ : Fin 128)) = Al (ix2 (0 : Fin 1) (⟨(i 1).val, idx2_lt1 i⟩ : Fin 128))) :
    k1_pay1 (F := Ideal) ab bb αb y = Gcn.activateRows A B Al i := by
  obtain ⟨p, q, rfl⟩ : ∃ (p : Fin 2000) (q : Fin 128), y = ix2 p q := ⟨y 0, y 1, eq_ix2 y⟩
  refine (stage_at ab bb αb p q).trans ?_
  show Gcn.actAt (ab (ix2 p q)) (bb (ix2 (0 : Fin 1) q)) (αb (ix2 (0 : Fin 1) q))
    = Gcn.actAt (A i) (B (ix2 (0 : Fin 1) (⟨(i 1).val, idx2_lt1 i⟩ : Fin 128))) (Al (ix2 (0 : Fin 1) (⟨(i 1).val, idx2_lt1 i⟩ : Fin 128)))
  exact congr (congr (congrArg Gcn.actAt ha) hb) hα

section Region
variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the 50 points: the read block and the result block are both the row band t, every
    other block index is 0. -/
theorem index_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 49 :=
  (by decide +kernel : ∀ t : Fin grid1.N, _)

/-- Every row band is some point's. -/
theorem band_onto : ∀ (q0 : Fin 50), ∃ t : Fin cfg1.N, win1_3.index t = ![q0.val, 0] :=
  (by decide +kernel : ∀ (q0 : Fin 50), ∃ t : Fin grid1.N, win1_3.index t = ![q0.val, 0])

/-- What point t writes back is block t of the output stage of the arrays the region was entered with. -/
theorem flushed_eq (c : Dev nD) (t : Fin cfg1.N) :
    (dat1 V c).flushed 3 t
      = ((cfg1.win 3).blk t).view.read (Elt Ideal) (Gcn.activateRows (V c main_v40) (V c main_v41) (V c main_v42)) := by
  show (cfg1.win 3).cut (grid1.coords t) ((dat1 V c).after 3 t) = _
  rw [after1_3]
  unfold out1_3
  rw [View.canon_unit_zero offsets_zero]
  simp only [View.ld_unit_zero (S := S2000x128) offsets_zero, View.ld_unit_zero (S := S1x128) offsets_zero]
  obtain ⟨e0, e1, e2, e3, e4, e5, e6, e7⟩ := index_facts t
  funext j
  show k1_pay1 (F := Ideal) (iblk1 V c 0 t) (iblk1 V c 1 t) (iblk1 V c 2 t) j
    = Gcn.activateRows (V c main_v40) (V c main_v41) (V c main_v42) (((cfg1.win 3).blk t).view.emb j)
  refine block_is_activate (V c main_v40) (V c main_v41) (V c main_v42) (iblk1 V c 0 t) (iblk1 V c 1 t) (iblk1 V c 2 t) j
    (((cfg1.win 3).blk t).view.emb j) ?_ ?_ ?_
  · show V c main_v40 (((cfg1.win 0).blk t).view.emb j) = V c main_v40 (((cfg1.win 3).blk t).view.emb j)
    refine congrArg (V c main_v40) (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * (j 1).val = win1_3.index t (1 : Fin 2) * 128 + 1 * (j 1).val; omega
  · show V c main_v41 (((cfg1.win 1).blk t).view.emb (ix2 (0 : Fin 1) (⟨(j 1).val, idx2_lt1 j⟩ : Fin 128))) = _
    refine congrArg (V c main_v41) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  · show V c main_v42 (((cfg1.win 2).blk t).view.emb (ix2 (0 : Fin 1) (⟨(j 1).val, idx2_lt1 j⟩ : Fin 128))) = _
    refine congrArg (V c main_v42) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the result array is in point t's block iff each coordinate is in the block's range on its axis. -/
theorem mem_band (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v43).slice (win1_3.rect t)).set ↔ _
  rw [View.set_slice_whole, Rect.mem_set_unit]
  exact Iff.rfl

/-- Every entry of the result array lies in the block of the point whose band holds its row. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := band_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_band]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The result array after the region is the output stage of the arrays the region was entered with. -/
theorem array_after (c : Dev nD) :
    (dat1 V c).arrAt 3 cfg1.N = Gcn.activateRows (V c main_v40) (V c main_v41) (V c main_v42) :=
  (dat1 V c).arrAt_eq_of_cover 3 (Gcn.activateRows (V c main_v40) (V c main_v41) (V c main_v42))
    (fun t _ => flushed_eq V c t) covered

end Region

end Cert.KernelIdeal.ActivateValue

end
-- ==== Proof.Between.lean ====
/-
  The host operations between the two kernel regions, read back.

  Between the regions the program applies 51 host operations to the first region's result h and to the edge list:
  the same index arithmetic, gathers and scatter-adds, in the same order and with the same constants, as the
  reference's aggregation (there applied to the reference's own h); then it recasts the bias and the slope from [128]
  to one row [1, 128].  So from any contents the stretch is entered with, the aggregated array it leaves is
  `aggregate` of the h and the edge list found there, and the two one-row arrays are the recast bias and slope.
  The chain itself is never opened: the two spellings are one term, operation for operation.
-/
import proofs.«145454_j6313601925376_1_alg».proof.Proof.Gen.KernelIdeal.Launch
import proofs.«145454_j6313601925376_1_alg».proof.Proof.Aggregate
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.ShloMosaic.StableHlo Idealize.SL.Sem

/-- The aggregated array after the stretch. -/
theorem aggregated (Wv : Valuation τ sig (Elt Ideal)) :
    after (hostOps1 (F := Ideal)) Wv (Proc.devRef .tc main_v40)
      = Cert.ReferenceIdeal.RefValue.aggregate (F := Ideal) (Wv (Proc.devRef .tc main_v0)) (Wv (Proc.devRef .tc main_arg1)) := by
  after_results_simp
  rfl

/-- The bias as one row after the stretch. -/
theorem bias_row (Wv : Valuation τ sig (Elt Ideal)) :
    after (hostOps1 (F := Ideal)) Wv (Proc.devRef .tc main_v41)
      = shapeCast S1x128 (Wv (Proc.devRef .tc main_arg3)) shapeCasts_S128_S1x128 := by
  after_results_simp
  rfl

/-- The slope as one row after the stretch. -/
theorem slope_row (Wv : Valuation τ sig (Elt Ideal)) :
    after (hostOps1 (F := Ideal)) Wv (Proc.devRef .tc main_v42)
      = shapeCast S1x128 (Wv (Proc.devRef .tc main_arg4)) shapeCasts_S128_S1x128 := by
  after_results_simp
  rfl

end Cert.KernelIdeal.Between

end
-- ==== Proof.KernelValue.lean ====
/-
  The kernel program's result, as the layer's three stages composed.

  The run leaves in the result buffer what the second region's write-backs leave there: the output stage of the three
  arrays that region was entered with.  Those are what the host operations between the regions leave: the aggregation
  of the first region's result over the edge list, and the bias and the slope recast as one row each.  The first
  region's result is x · W of the launch arrays; the edge list, the bias and the slope are still the launch arrays, since
  the first region writes none of them.  Recasting a [128] array as one row keeps its 128 numbers, so the result is
  the output stage of the aggregation of x · W with the bias and the slope as launched.
-/
import proofs.«145454_j6313601925376_1_alg».proof.Proof.ResultRun
import proofs.«145454_j6313601925376_1_alg».proof.Proof.LinearValue
import proofs.«145454_j6313601925376_1_alg».proof.Proof.ActivateValue
import proofs.«145454_j6313601925376_1_alg».proof.Proof.Between

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first region's result array, when the host stretch is entered: x · W of the launch arrays. -/
theorem h_entry (c : Dev nD) :
    W1 m ρ c (Proc.devRef .tc main_v0)
      = Gcn.linear (m ((c : Thread nD τ).loc main_arg0)) (m ((c : Thread nD τ).loc main_arg2)) :=
  (W1_arr m ρ c 2).trans (LinearValue.array_after (V0 m ρ) c)

/-- The edge list, the bias and the slope when the host stretch is entered: the first region leaves them as launched. -/
theorem edges_entry (c : Dev nD) : W1 m ρ c (Proc.devRef .tc main_arg1) = m ((c : Thread nD τ).loc main_arg1) :=
  W1_of_ne m ρ c main_arg1 (by decide)
theorem bias_entry (c : Dev nD) : W1 m ρ c (Proc.devRef .tc main_arg3) = m ((c : Thread nD τ).loc main_arg3) :=
  W1_of_ne m ρ c main_arg3 (by decide)
theorem slope_entry (c : Dev nD) : W1 m ρ c (Proc.devRef .tc main_arg4) = m ((c : Thread nD τ).loc main_arg4) :=
  W1_of_ne m ρ c main_arg4 (by decide)

/-- The three arrays the second region is entered with. -/
theorem aggregated_entry (c : Dev nD) :
    V2 m ρ c main_v40
      = Cert.ReferenceIdeal.RefValue.aggregate (F := Ideal)
          (Gcn.linear (m ((c : Thread nD τ).loc main_arg0)) (m ((c : Thread nD τ).loc main_arg2)))
          (m ((c : Thread nD τ).loc main_arg1)) := by
  show StableHlo.after (hostOps1 (F := Ideal)) (W1 m ρ c) (Proc.devRef .tc main_v40) = _
  rw [Between.aggregated (W1 m ρ c), h_entry m ρ c, edges_entry m ρ c]
theorem bias_row_entry (c : Dev nD) :
    V2 m ρ c main_v41 = shapeCast S1x128 (m ((c : Thread nD τ).loc main_arg3)) shapeCasts_S128_S1x128 := by
  show StableHlo.after (hostOps1 (F := Ideal)) (W1 m ρ c) (Proc.devRef .tc main_v41) = _
  rw [Between.bias_row (W1 m ρ c), bias_entry m ρ c]
theorem slope_row_entry (c : Dev nD) :
    V2 m ρ c main_v42 = shapeCast S1x128 (m ((c : Thread nD τ).loc main_arg4)) shapeCasts_S128_S1x128 := by
  show StableHlo.after (hostOps1 (F := Ideal)) (W1 m ρ c) (Proc.devRef .tc main_v42) = _
  rw [Between.slope_row (W1 m ρ c), slope_entry m ρ c]

/-- THE KERNEL PROGRAM'S RESULT: the output stage of the aggregation of x · W. -/
theorem result_eq (c : Dev nD) :
    W3 m ρ c (Proc.devRef .tc main_v43)
      = Gcn.activate (Cert.ReferenceIdeal.RefValue.aggregate (F := Ideal)
            (Gcn.linear (m ((c : Thread nD τ).loc main_arg0)) (m ((c : Thread nD τ).loc main_arg2)))
            (m ((c : Thread nD τ).loc main_arg1)))
          (m ((c : Thread nD τ).loc main_arg3)) (m ((c : Thread nD τ).loc main_arg4)) := by
  refine (W3_arr m ρ c 3).trans ?_
  rw [ActivateValue.array_after (V2 m ρ) c, aggregated_entry m ρ c, bias_row_entry m ρ c, slope_row_entry m ρ c]
  exact Gcn.activateRows_cast _ _ _ shapeCasts_S128_S1x128

/-- The run, with the result named by the layer's stages and the arguments unchanged. -/
theorem run : θ_run defs (onTc (τ := τ) (main (F := Ideal))) ⟨m, fun _ => 0, ρ⟩ (fun r => ∀ c : Dev nD,
      r.2.mem ((c.tc : Thread nD τ).loc main_v43)
        = Gcn.activate (Cert.ReferenceIdeal.RefValue.aggregate (F := Ideal)
            (Gcn.linear (m ((c : Thread nD τ).loc main_arg0)) (m ((c : Thread nD τ).loc main_arg2)))
            (m ((c : Thread nD τ).loc main_arg1)))
          (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (ResultRun.run (F := Ideal) m ρ)

end Cert.KernelIdeal.KernelValue

end
-- ==== Proof.lean ====
/-
  One graph-convolution layer, computed two ways, gives the same array over the extended reals.

  Both programs take node features x [100000, 256], an edge list [2, 1600000], weights W [256, 128], a bias and a
  per-channel slope [128], and return [100000, 128]:
      h   = x · W
      agg = the symmetric-normalised sum over the edges, with one self loop per node, of the rows of h
            (edge row → col adds rsqrt(deg row) * rsqrt(deg col) * h[row] into agg[col], deg counting edges into a node)
      out = z where z ≥ 0, slope * z elsewhere, with z = agg + bias.
  The first program computes h in a kernel of 50 grid points (a tile product of 2000 rows of x with W into a zero
  accumulator per point), the aggregation by host operations, and the last stage in a second kernel of 50 grid points
  (2000 rows per point).  The second program is host operations throughout: one whole contraction, the same
  aggregation, the same last stage.

  Why the results agree entry by entry:
  * a tile product into zero and a whole contraction are, at an entry, the same sum over the 256 contracted positions
    (the narrowing casts in front of the tile product are the identity on extended reals), and the 50 row bands tile
    the rows, so both h are x · W (Proof/LinearValue.lean, Proof/Aggregate.lean);
  * the aggregation is literally the same chain of operations applied to h and the edge list in both programs, so it
    is carried as one function `aggregate` and never opened (Proof/Between.lean);
  * the last stage is the same three operations at every entry, the bias and the slope read at the entry's channel
    whether they arrive as one row [1, 128] or broadcast along the rows (Proof/ActivateValue.lean, Proof/Aggregate.lean).
  No sum is rearranged and nothing is cancelled, so the finiteness of the inputs is not used.

  The three runs: each kernel program runs to the end with its arguments unchanged by the frame proof over its two
  regions; the same launch, stated with the result buffer in its post, names the result (Proof/ResultRun.lean,
  Proof/KernelValue.lean); the reference's run is its operations folded over the launch memory.
-/
import proofs.«145454_j6313601925376_1_alg».proof.Defs
import proofs.«145454_j6313601925376_1_alg».proof.Proof.Gen.Kernel
import proofs.«145454_j6313601925376_1_alg».proof.Proof.Gen.Kernel.Skeleton
import proofs.«145454_j6313601925376_1_alg».proof.Proof.Gen.Kernel.Launch
import proofs.«145454_j6313601925376_1_alg».proof.Proof.Gen.Kernel.Points
import proofs.«145454_j6313601925376_1_alg».proof.Proof.Gen.Kernel.Frame
import proofs.«145454_j6313601925376_1_alg».proof.Proof.Gen.KernelIdeal
import proofs.«145454_j6313601925376_1_alg».proof.Proof.Gen.KernelIdeal.Skeleton
import proofs.«145454_j6313601925376_1_alg».proof.Proof.Gen.KernelIdeal.Launch
import proofs.«145454_j6313601925376_1_alg».proof.Proof.Gen.KernelIdeal.Points
import proofs.«145454_j6313601925376_1_alg».proof.Proof.Gen.KernelIdeal.Frame
import proofs.«145454_j6313601925376_1_alg».proof.Proof.Gen.ReferenceIdeal
import proofs.«145454_j6313601925376_1_alg».proof.Proof.Gen.ReferenceIdeal.Run
import proofs.«145454_j6313601925376_1_alg».proof.Proof.Gen.ReferenceIdeal.Read
import proofs.«145454_j6313601925376_1_alg».proof.Proof.Gen.Pre_finite_inputs
import proofs.«145454_j6313601925376_1_alg».proof.Proof.Aggregate
import proofs.«145454_j6313601925376_1_alg».proof.Proof.KernelValue
import Idealize.ShloMosaic.Adequacy
import Idealize.ShloMosaic.Init

noncomputable section

namespace Cert.Proof

open Idealize.ShloMosaic Idealize.SL.Sem

/-- The word-level kernel program runs to the end, nothing faulting, its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference runs to the end with its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both results are the output stage of the aggregation of x · W of the arguments, and the arguments agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
